-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S32x32 : Shape := ⟨2, ![32, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S16384x32 .f32) (main_arg1 : FVec F S16384x16384 .f32) (main_arg2 : FVec F S32x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S16384x32 : Shape := ⟨2, ![16384, 32]⟩
abbrev S16384x16384 : Shape := ⟨2, ![16384, 16384]⟩
abbrev S32x32 : Shape := ⟨2, ![32, 32]⟩
abbrev S2048x32 : Shape := ⟨2, ![2048, 32]⟩
abbrev S128x16384 : Shape := ⟨2, ![128, 16384]⟩
abbrev S128x32 : Shape := ⟨2, ![128, 32]⟩

abbrev nBuf : Space → Nat
  | .hbm => 7
  | .vmem => 14
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x32, .f32⟩
  | .hbm, ⟨3, _⟩ => ⟨S32x32, .f32⟩
  | .hbm, ⟨4, _⟩ => ⟨S16384x32, .f32⟩
  | .hbm, ⟨5, _⟩ => ⟨S16384x32, .bf16⟩
  | .hbm, ⟨6, _⟩ => ⟨S16384x32, .f32⟩
  | .local _ .vmem, ⟨0, _⟩ => ⟨S2048x32, .f32⟩
  | .local _ .vmem, ⟨1, _⟩ => ⟨S2048x32, .f32⟩
  | .local _ .vmem, ⟨2, _⟩ => ⟨S32x32, .f32⟩
  | .local _ .vmem, ⟨3, _⟩ => ⟨S2048x32, .f32⟩
  | .local _ .vmem, ⟨4, _⟩ => ⟨S2048x32, .f32⟩
  | .local _ .vmem, ⟨5, _⟩ => ⟨S2048x32, .bf16⟩
  | .local _ .vmem, ⟨6, _⟩ => ⟨S2048x32, .bf16⟩
  | .local _ .vmem, ⟨7, _⟩ => ⟨S128x16384, .f32⟩
  | .local _ .vmem, ⟨8, _⟩ => ⟨S128x16384, .f32⟩
  | .local _ .vmem, ⟨9, _⟩ => ⟨S16384x32, .bf16⟩
  | .local _ .vmem, ⟨10, _⟩ => ⟨S128x32, .f32⟩
  | .local _ .vmem, ⟨11, _⟩ => ⟨S128x32, .f32⟩
  | .local _ .vmem, ⟨12, _⟩ => ⟨S128x32, .f32⟩
  | .local _ .vmem, ⟨13, _⟩ => ⟨S128x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x32_S32x32_1_0 : S32x32.Transposes [1, 0] S32x32
  inb_S2048x32_S2048x32_0_0 : ∀ a, (![0, 0] : Fin 2 → Nat) a + S2048x32.size a ≤ S2048x32.size a
  h_S2048x32 : 0 < S2048x32.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bitsLt_bf16_f32 : FTy.bits .bf16 < FTy.bits .f32
  packedbf16_S2048x32_S2048x32_0_0 : (Rect.unit (s := S2048x32) ![0, 0] S2048x32.size inb_S2048x32_S2048x32_0_0).PackedRows (EltTy.packing .bf16)
  inb_S128x16384_S128x16384_0_0 : ∀ a, (![0, 0] : Fin 2 → Nat) a + S128x16384.size a ≤ S128x16384.size a
  h_S128x16384 : 0 < S128x16384.numel
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  dot_S2048x32_S32x32_S2048x32_1_0_0_1_n_n_wf : DotDims.WF S2048x32 S32x32 S2048x32 [1] [0] [0] [1] [] []
  dot_S128x16384_S16384x32_S128x32_1_0_0_1_n_n_wf : DotDims.WF S128x16384 S16384x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S16384x32.size a
  hwx0_0 : ∀ i : grid0.Coords, EltTy.bits .f32 = 32 ∨ (Rect.block (s := S16384x32) S2048x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .f32 = 32 ∨ (Rect.block (s := S16384x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S16384x32.size a
  hwx0_3 : ∀ i : grid0.Coords, EltTy.bits .bf16 = 32 ∨ (Rect.block (s := S16384x32) S2048x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .f32 = 32 ∨ (Rect.block (s := S16384x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x32.size a ≤ S16384x32.size a
  hwx1_1 : ∀ i : grid1.Coords, EltTy.bits .bf16 = 32 ∨ (Rect.block (s := S16384x32) S16384x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S16384x32.size a
  hwx1_2 : ∀ i : grid1.Coords, EltTy.bits .f32 = 32 ∨ (Rect.block (s := S16384x32) S128x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S16384x32.size a
  hwx1_3 : ∀ i : grid1.Coords, EltTy.bits .f32 = 32 ∨ (Rect.block (s := S16384x32) S128x32.size (cc1_transform_3 i) (hinb1_3 i)).WholeWords (EltTy.packing .f32)

variable [Facts₀]

def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S128x16384_S16384x32_S128x32_1_0_0_1_n_n : DotDims S128x16384 S16384x32 S128x32 where
  lhsContracting := [1]
  rhsContracting := [0]
  lhsNonContracting := [0]
  rhsNonContracting := [1]
  lhsBatch := []
  rhsBatch := []
  wf := dot_S128x16384_S16384x32_S128x32_1_0_0_1_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S16384x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S128x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x32 : Shape := ⟨2, ![16384, 32]⟩
abbrev S16384x16384 : Shape := ⟨2, ![16384, 16384]⟩
abbrev S32x32 : Shape := ⟨2, ![32, 32]⟩

abbrev nBuf : Space → Nat
  | .hbm => 7
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x32, .f32⟩
  | .hbm, ⟨3, _⟩ => ⟨S32x32, .f32⟩
  | .hbm, ⟨4, _⟩ => ⟨S16384x32, .f32⟩
  | .hbm, ⟨5, _⟩ => ⟨S16384x32, .f32⟩
  | .hbm, ⟨6, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S32x32_S32x32_1_0 : S32x32.Transposes [1, 0] S32x32
  dot_S16384x32_S32x32_S16384x32_1_0_0_1_n_n_wf : DotDims.WF S16384x32 S32x32 S16384x32 [1] [0] [0] [1] [] []
  dot_S16384x16384_S16384x32_S16384x32_1_0_0_1_n_n_wf : DotDims.WF S16384x16384 S16384x32 S16384x32 [1] [0] [0] [1] [] []

variable [Facts₀]

def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.Spec.lean ====
/-
  The graph-convolution layer both programs compute, as functions on the extended reals.

  For node features `x` (16384 nodes, 32 features), edge weights `e` (16384 × 16384) and layer weights `w` (32 × 32):
  the linear layer is  h[k, j] = ∑_d x[k, d] · w[j, d]  (each node's row against row `j` of the weights), and the layer's
  result is  out[i, j] = ∑_k e[i, k] · h[k, j] + h[i, j]  (the neighbours' features weighted by the edges, plus the node's own).
  Sums over a finite index set on the extended reals are commutative and associative, so how either program groups them
  by tiles does not matter; no distributivity or cancellation is used, and none of this needs the inputs finite.
-/
import Idealize.ShloMosaic.PureOps.Ideal
import Idealize.ShloMosaic.Lib.ValueIdx

noncomputable section

open scoped BigOperators

namespace Cert.Gcn

open Idealize.ShloMosaic Idealize.ShloMosaic.ValueIdx

/-- The linear layer at node `a`, output feature `b`: the node's features against row `b` of the weights. -/
def lin (x : (⟨2, ![16384, 32]⟩ : Shape).Idx → EReal) (w : (⟨2, ![32, 32]⟩ : Shape).Idx → EReal)
    (a : Fin 16384) (b : Fin 32) : EReal :=
  ∑ d : Fin 32, x (ix2 a d) * w (ix2 b d)

/-- The aggregation at node `a`, feature `b`, of per-node features `h`: the edge-weighted sum over all nodes, plus the
    node's own features. -/
def agg (e : (⟨2, ![16384, 16384]⟩ : Shape).Idx → EReal) (h : Fin 16384 → Fin 32 → EReal)
    (a : Fin 16384) (b : Fin 32) : EReal :=
  (∑ k : Fin 16384, e (ix2 a k) * h k b) + h a b

/-- The layer's result as one array of the three inputs. -/
def layer (x : (⟨2, ![16384, 32]⟩ : Shape).Idx → EReal) (e : (⟨2, ![16384, 16384]⟩ : Shape).Idx → EReal)
    (w : (⟨2, ![32, 32]⟩ : Shape).Idx → EReal) : (⟨2, ![16384, 32]⟩ : Shape).Idx → EReal :=
  fun i => agg e (lin x w) (i 0) (i 1)

theorem layer_ix2 (x : (⟨2, ![16384, 32]⟩ : Shape).Idx → EReal) (e : (⟨2, ![16384, 16384]⟩ : Shape).Idx → EReal)
    (w : (⟨2, ![32, 32]⟩ : Shape).Idx → EReal) (a : Fin 16384) (b : Fin 32) :
    layer x e w (ix2 a b) = agg e (lin x w) a b := rfl

/-! ## The same layer as the two array stages the kernel program computes it in -/

/-- The product of the node features with a 32 × 32 matrix `wt` contracted along its FIRST axis: at (a, b) the sum over
    `d` of x[a, d] · wt[d, b]. With `wt` the transposed weights this is the linear layer. -/
def rowsByCols (x : (⟨2, ![16384, 32]⟩ : Shape).Idx → EReal) (wt : (⟨2, ![32, 32]⟩ : Shape).Idx → EReal) :
    (⟨2, ![16384, 32]⟩ : Shape).Idx → EReal :=
  fun i => ∑ d : Fin 32, x (ix2 (⟨(i 0).val, idx2_lt0 i⟩ : Fin 16384) d) * wt (ix2 d (⟨(i 1).val, idx2_lt1 i⟩ : Fin 32))

/-- The aggregation of a per-node feature array `hb` along the edges, plus a second per-node array `hf` (the kernel
    program keeps two copies of the linear layer's result, one per use). -/
def aggArr (e : (⟨2, ![16384, 16384]⟩ : Shape).Idx → EReal) (hb hf : (⟨2, ![16384, 32]⟩ : Shape).Idx → EReal) :
    (⟨2, ![16384, 32]⟩ : Shape).Idx → EReal :=
  fun i => (∑ k : Fin 16384, e (ix2 (⟨(i 0).val, idx2_lt0 i⟩ : Fin 16384) k) * hb (ix2 k (⟨(i 1).val, idx2_lt1 i⟩ : Fin 32))) + hf i

theorem rowsByCols_ix2 (x : (⟨2, ![16384, 32]⟩ : Shape).Idx → EReal) (wt : (⟨2, ![32, 32]⟩ : Shape).Idx → EReal)
    (a : Fin 16384) (b : Fin 32) : rowsByCols x wt (ix2 a b) = ∑ d : Fin 32, x (ix2 a d) * wt (ix2 d b) := rfl

theorem aggArr_ix2 (e : (⟨2, ![16384, 16384]⟩ : Shape).Idx → EReal) (hb hf : (⟨2, ![16384, 32]⟩ : Shape).Idx → EReal)
    (a : Fin 16384) (b : Fin 32) :
    aggArr e hb hf (ix2 a b) = (∑ k : Fin 16384, e (ix2 a k) * hb (ix2 k b)) + hf (ix2 a b) := rfl

/-- The two stages compose to the layer when `wt` is the transpose of the weights `w`. -/
theorem aggArr_rowsByCols (x : (⟨2, ![16384, 32]⟩ : Shape).Idx → EReal) (e : (⟨2, ![16384, 16384]⟩ : Shape).Idx → EReal)
    (w wt : (⟨2, ![32, 32]⟩ : Shape).Idx → EReal) (hwt : ∀ (d b : Fin 32), wt (ix2 d b) = w (ix2 b d)) :
    aggArr e (rowsByCols x wt) (rowsByCols x wt) = layer x e w := by
  have key : ∀ (a : Fin 16384) (b : Fin 32), rowsByCols x wt (ix2 a b) = lin x w a b := fun a b => by
    rw [rowsByCols_ix2]
    exact Finset.sum_congr rfl fun d _ => by rw [hwt]
  funext i
  obtain ⟨a, b, rfl⟩ : ∃ (a : Fin 16384) (b : Fin 32), i = ix2 a b := ⟨i 0, i 1, eq_ix2 i⟩
  rw [aggArr_ix2, layer_ix2, key]
  unfold agg
  exact congrArg₂ (· + ·) (Finset.sum_congr rfl fun k _ => by rw [key]) rfl

end Cert.Gcn

end
-- ==== Proof.LinearRegion.lean ====
/-
  The first kernel region, at the ideal instance: the linear layer, eight blocks of 2048 nodes.

  At grid point `t` the body multiplies rows 2048·t … 2048·t + 2047 of the node features by the whole 32 × 32 matrix it is
  given (into a zero accumulator, so the product is the plain sum over the 32 contracted features) and stores the block
  twice: as it is, and after a change of float format, which at the ideal instance is the identity. Block `t` of either
  output is therefore block `t` of ONE array, `rowsByCols` of the two arrays the region finds, and the eight blocks
  tile the 16384 rows, so both output arrays end at that array.
-/
import proofs.«170183_j82394652607289_1_alg».proof.Proof.Gen.KernelIdeal.Frame
import proofs.«170183_j82394652607289_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Linear

open Cert.KernelIdeal Cert.KernelIdeal.Gen Idealize.ShloMosaic Idealize.ShloMosaic.TcCoe Idealize.ShloMosaic.ValueIdx
open Idealize.SL.Sem
open Idealize.ShloMosaic.Pipeline (Dat)
open Cert.Gcn (rowsByCols)

/-! ## The body's product at an index -/

abbrev D0 := dot_S2048x32_S32x32_S2048x32_1_0_0_1_n_n

theorem lhs0_0 (i : S2048x32.Idx) (q : dot_S2048x32_S32x32_S2048x32_1_0_0_1_n_n.contr.Idx) :
    (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide), dif_pos (show (0 : Fin S2048x32.rank) ∈ dot_S2048x32_S32x32_S2048x32_1_0_0_1_n_n.lhsNonContracting by decide)]
  rfl
theorem lhs0_1 (i : S2048x32.Idx) (q : dot_S2048x32_S32x32_S2048x32_1_0_0_1_n_n.contr.Idx) :
    (dot_S2048x32_S32x32_S2048x32_1_0_0_1_n_n.lhsIdx i q 1).val = (q ⟨0, by decide⟩).val :=
  dot_S2048x32_S32x32_S2048x32_1_0_0_1_n_n.lhsIdx_val_of_single rfl i q
theorem rhs0_0 (i : S2048x32.Idx) (q : dot_S2048x32_S32x32_S2048x32_1_0_0_1_n_n.contr.Idx) :
    (dot_S2048x32_S32x32_S2048x32_1_0_0_1_n_n.rhsIdx i q 0).val = (q ⟨0, by decide⟩).val :=
  dot_S2048x32_S32x32_S2048x32_1_0_0_1_n_n.rhsIdx_val_of_single rfl i q
theorem rhs0_1 (i : S2048x32.Idx) (q : dot_S2048x32_S32x32_S2048x32_1_0_0_1_n_n.contr.Idx) :
    (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide), dif_pos (show (1 : Fin S32x32.rank) ∈ dot_S2048x32_S32x32_S2048x32_1_0_0_1_n_n.rhsNonContracting by decide)]
  rfl

/-- The body's product at row `p` of the block, feature `q`: the sum over the 32 contracted features. -/
theorem pay1_apply (x0 : Vec Ideal S2048x32 .f32) (x1 : Vec Ideal S32x32 .f32) (p : Fin 2048) (q : Fin 32) :
    k0_pay1 (F := Ideal) x0 x1 (ix2 p q) = ∑ d : Fin 32, x0 (ix2 p d) * x1 (ix2 d q) := by
  unfold k0_pay1
  simp only [matmul]
  rw [Ideal.matmul_constant_zero_apply, shapeCast_self,
    ← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx (ix2 p q) ((contrEquiv1 dot_S2048x32_S32x32_S2048x32_1_0_0_1_n_n 32 rfl rfl).symm k) = ix2 p k := funext fun a => Fin.ext (by
    match a with
    | ⟨0, _⟩ => exact lhs0_0 _ _
    | ⟨1, _⟩ => exact (lhs0_1 _ _).trans hk)
  have er : dot_S2048x32_S32x32_S2048x32_1_0_0_1_n_n.rhsIdx (ix2 p q) ((contrEquiv1 dot_S2048x32_S32x32_S2048x32_1_0_0_1_n_n 32 rfl rfl).symm k) = ix2 k q := funext fun a => Fin.ext (by
    match a with
    | ⟨0, _⟩ => exact (rhs0_0 _ _).trans hk
    | ⟨1, _⟩ => exact rhs0_1 _ _)
  rw [el, er]

/-- The second store's value is the first's: the change of format is the identity on the extended reals. -/
theorem pay2_apply (x0 : Vec Ideal S2048x32 .f32) (x1 : Vec Ideal S32x32 .f32) (p : Fin 2048) (q : Fin 32) :
    k0_pay2 (F := Ideal) x0 x1 (ix2 p q) = ∑ d : Fin 32, x0 (ix2 p d) * x1 (ix2 d q) :=
  pay1_apply x0 x1 p q

/-! ## The blocks and the arrays -/

section Region
variable (V : (c : Dev nD) → (b : Ref sig .tc) → Buf (Elt Ideal) ((c : Thread nD τ).loc b))

theorem hz : (![0, 0] : Fin 2 → Nat) = fun _ => 0 := funext fun a => by fin_cases a <;> rfl

/-- The node features and the 32 × 32 matrix as the region finds them, at their literal types. -/
abbrev xArr (c : Dev nD) : Vec Ideal S16384x32 .f32 := V c main_arg0
abbrev wtArr (c : Dev nD) : Vec Ideal S32x32 .f32 := V c main_v0

/-- The printed index maps over the grid: the row windows sit at block `t`, the matrix window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back to the first output is block `t` of the product of the two arrays the region finds. -/
theorem flushed2_eq (c : Dev nD) (t : Fin cfg0.N) :
    (dat0 V c).flushed 2 t = ((cfg0.win 2).blk t).view.read (Elt Ideal) (rowsByCols (xArr V c) (wtArr V c)) := by
  show (cfg0.win 2).cut (grid0.coords t) ((dat0 V c).after 2 t) = _
  rw [after0_2]
  unfold out0_2
  rw [View.canon_unit_zero hz]
  simp only [View.ld_unit_zero (S := S2048x32) hz, View.ld_unit_zero (S := S32x32) hz]
  obtain ⟨e0, e1, e2, e3, e4, e5, e6, e7⟩ := idx_facts t
  funext j
  obtain ⟨p, q, rfl⟩ : ∃ (p : Fin 2048) (q : Fin 32), j = ix2 p q := ⟨j 0, j 1, eq_ix2 j⟩
  refine (pay1_apply (iblk0 V c 0 t) (iblk0 V c 1 t) p q).trans ?_
  rw [View.read_apply]
  unfold Cert.Gcn.rowsByCols
  refine Finset.sum_congr rfl fun d _ => ?_
  show xArr V c (((cfg0.win 0).blk t).view.emb (ix2 p d)) * wtArr V c (((cfg0.win 1).blk t).view.emb (ix2 d q)) = _
  have h0 : ((cfg0.win 0).blk t).view.emb (ix2 p d)
      = ix2 (⟨((((cfg0.win 2).blk t).view.emb (ix2 p q)) 0).val, idx2_lt0 _⟩ : Fin 16384) d := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 32 + 1 * d.val = d.val; omega
  have h1 : ((cfg0.win 1).blk t).view.emb (ix2 d q)
      = ix2 d (⟨((((cfg0.win 2).blk t).view.emb (ix2 p q)) 1).val, idx2_lt1 _⟩ : Fin 32) := by
    funext a; apply Fin.ext
    match a with
    | ⟨0, _⟩ => show win0_1.index t (0 : Fin 2) * 32 + 1 * d.val = d.val; omega
    | ⟨1, _⟩ => show win0_1.index t (1 : Fin 2) * 32 + 1 * q.val = win0_2.index t (1 : Fin 2) * 32 + 1 * q.val; omega
  rw [h0, h1]

/-- The second output's block is the same: its store holds the same product. -/
theorem flushed3_eq (c : Dev nD) (t : Fin cfg0.N) :
    (dat0 V c).flushed 3 t = ((cfg0.win 3).blk t).view.read (Elt Ideal) (rowsByCols (xArr V c) (wtArr V c)) := by
  show (cfg0.win 3).cut (grid0.coords t) ((dat0 V c).after 3 t) = _
  rw [after0_3]
  unfold out0_3
  rw [View.canon_unit_zero hz]
  simp only [View.ld_unit_zero (S := S2048x32) hz, View.ld_unit_zero (S := S32x32) hz]
  obtain ⟨e0, e1, e2, e3, e4, e5, e6, e7⟩ := idx_facts t
  funext j
  obtain ⟨p, q, rfl⟩ : ∃ (p : Fin 2048) (q : Fin 32), j = ix2 p q := ⟨j 0, j 1, eq_ix2 j⟩
  refine (pay2_apply (iblk0 V c 0 t) (iblk0 V c 1 t) p q).trans ?_
  rw [View.read_apply]
  unfold Cert.Gcn.rowsByCols
  refine Finset.sum_congr rfl fun d _ => ?_
  show xArr V c (((cfg0.win 0).blk t).view.emb (ix2 p d)) * wtArr V c (((cfg0.win 1).blk t).view.emb (ix2 d q)) = _
  have h0 : ((cfg0.win 0).blk t).view.emb (ix2 p d)
      = ix2 (⟨((((cfg0.win 3).blk t).view.emb (ix2 p q)) 0).val, idx2_lt0 _⟩ : Fin 16384) d := by
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 32 + 1 * d.val = d.val; omega
  have h1 : ((cfg0.win 1).blk t).view.emb (ix2 d q)
      = ix2 d (⟨((((cfg0.win 3).blk t).view.emb (ix2 p q)) 1).val, idx2_lt1 _⟩ : Fin 32) := by
    funext a; apply Fin.ext
    match a with
    | ⟨0, _⟩ => show win0_1.index t (0 : Fin 2) * 32 + 1 * d.val = d.val; omega
    | ⟨1, _⟩ => show win0_1.index t (1 : Fin 2) * 32 + 1 * q.val = win0_3.index t (1 : Fin 2) * 32 + 1 * q.val; omega
  rw [h0, h1]

/-! ## The eight blocks tile the rows -/

/-- An index of the array is in point `t`'s block of the first output iff each coordinate is in the block's range. -/
theorem mem_blk2 (t : Fin cfg0.N) (i : S16384x32.Idx) :
    i ∈ ((cfg0.win 2).blk t).view.set ↔ ∀ a : Fin 2, win0_2.index t a * S2048x32.size a ≤ (i a).val ∧ (i a).val < win0_2.index t a * S2048x32.size a + S2048x32.size a := by
  show i ∈ ((View.whole main_v1_0).slice (win0_2.rect t)).set ↔ _
  rw [View.set_slice_whole, Rect.mem_set_unit]
  exact Iff.rfl

theorem mem_blk3 (t : Fin cfg0.N) (i : S16384x32.Idx) :
    i ∈ ((cfg0.win 3).blk t).view.set ↔ ∀ a : Fin 2, win0_3.index t a * S2048x32.size a ≤ (i a).val ∧ (i a).val < win0_3.index t a * S2048x32.size a + S2048x32.size a := by
  show i ∈ ((View.whole main_v1_1).slice (win0_3.rect t)).set ↔ _
  rw [View.set_slice_whole, Rect.mem_set_unit]
  exact Iff.rfl

/-- Row `r` is in the block of point `r / 2048`. -/
theorem cover2 (i : S16384x32.Idx) : ∃ t : Fin cfg0.N, (cfg0.win 2).flush t = true ∧ i ∈ ((cfg0.win 2).blk t).view.set := by
  have hi0 : (i 0).val < 16384 := (i 0).isLt
  have hi1 : (i 1).val < 32 := (i 1).isLt
  obtain ⟨t, ht⟩ : ∃ t : Fin cfg0.N, t.val = (i 0).val / 2048 :=
    ⟨⟨(i 0).val / 2048, by rw [show cfg0.N = 8 from N_0]; omega⟩, rfl⟩
  obtain ⟨e0, e1, e2, e3, e4, e5, e6, e7⟩ := idx_facts t
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 32 ≤ (i 1).val ∧ (i 1).val < win0_2.index t (1 : Fin 2) * 32 + 32; omega

theorem cover3 (i : S16384x32.Idx) : ∃ t : Fin cfg0.N, (cfg0.win 3).flush t = true ∧ i ∈ ((cfg0.win 3).blk t).view.set := by
  have hi0 : (i 0).val < 16384 := (i 0).isLt
  have hi1 : (i 1).val < 32 := (i 1).isLt
  obtain ⟨t, ht⟩ : ∃ t : Fin cfg0.N, t.val = (i 0).val / 2048 :=
    ⟨⟨(i 0).val / 2048, by rw [show cfg0.N = 8 from N_0]; omega⟩, rfl⟩
  obtain ⟨e0, e1, e2, e3, e4, e5, e6, e7⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 32 ≤ (i 1).val ∧ (i 1).val < win0_3.index t (1 : Fin 2) * 32 + 32; omega

/-- Both output arrays end at the product of the two arrays the region finds. -/
theorem final2 (c : Dev nD) : (dat0 V c).arrAt 2 cfg0.N = rowsByCols (xArr V c) (wtArr V c) :=
  (dat0 V c).arrAt_eq_of_cover 2 _ (fun t _ => flushed2_eq V c t) cover2
theorem final3 (c : Dev nD) : (dat0 V c).arrAt 3 cfg0.N = rowsByCols (xArr V c) (wtArr V c) :=
  (dat0 V c).arrAt_eq_of_cover 3 _ (fun t _ => flushed3_eq V c t) cover3

end Region

end Cert.KernelIdeal.Linear

end
-- ==== Proof.AggregateRegion.lean ====
/-
  The second kernel region, at the ideal instance: the aggregation along the edges, 128 blocks of 128 nodes.

  At grid point `t` the body takes rows 128·t … 128·t + 127 of the edge weights, whole, multiplies them by the whole
  16384 × 32 array of per-node features it is given (the change of float format before the product is the identity at
  the ideal instance; the accumulator is zero, so the product is the plain sum over the 16384 contracted nodes) and
  adds the same rows of a second 16384 × 32 array. Block `t` of the output is therefore block `t` of ONE array,
  `aggArr` of the three arrays the region finds, and the 128 blocks tile the 16384 rows.
-/
import proofs.«170183_j82394652607289_1_alg».proof.Proof.Gen.KernelIdeal.Frame
import proofs.«170183_j82394652607289_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Aggregate

open Cert.KernelIdeal Cert.KernelIdeal.Gen Idealize.ShloMosaic Idealize.ShloMosaic.TcCoe Idealize.ShloMosaic.ValueIdx
open Idealize.SL.Sem
open Idealize.ShloMosaic.Pipeline (Dat)
open Cert.Gcn (aggArr)

/-! ## The body's product at an index -/

theorem lhs1_0 (i : S128x32.Idx) (q : dot_S128x16384_S16384x32_S128x32_1_0_0_1_n_n.contr.Idx) :
    (dot_S128x16384_S16384x32_S128x32_1_0_0_1_n_n.lhsIdx i q 0).val = (i 0).val := by
  unfold DotDims.lhsIdx
  rw [dif_neg (show ¬(0 : Fin S128x16384.rank) ∈ dot_S128x16384_S16384x32_S128x32_1_0_0_1_n_n.lhsBatch by decide), dif_pos (show (0 : Fin S128x16384.rank) ∈ dot_S128x16384_S16384x32_S128x32_1_0_0_1_n_n.lhsNonContracting by decide)]
  rfl
theorem lhs1_1 (i : S128x32.Idx) (q : dot_S128x16384_S16384x32_S128x32_1_0_0_1_n_n.contr.Idx) :
    (dot_S128x16384_S16384x32_S128x32_1_0_0_1_n_n.lhsIdx i q 1).val = (q ⟨0, by decide⟩).val :=
  dot_S128x16384_S16384x32_S128x32_1_0_0_1_n_n.lhsIdx_val_of_single rfl i q
theorem rhs1_0 (i : S128x32.Idx) (q : dot_S128x16384_S16384x32_S128x32_1_0_0_1_n_n.contr.Idx) :
    (dot_S128x16384_S16384x32_S128x32_1_0_0_1_n_n.rhsIdx i q 0).val = (q ⟨0, by decide⟩).val :=
  dot_S128x16384_S16384x32_S128x32_1_0_0_1_n_n.rhsIdx_val_of_single rfl i q
theorem rhs1_1 (i : S128x32.Idx) (q : dot_S128x16384_S16384x32_S128x32_1_0_0_1_n_n.contr.Idx) :
    (dot_S128x16384_S16384x32_S128x32_1_0_0_1_n_n.rhsIdx i q 1).val = (i 1).val := by
  unfold DotDims.rhsIdx
  rw [dif_neg (show ¬(1 : Fin S16384x32.rank) ∈ dot_S128x16384_S16384x32_S128x32_1_0_0_1_n_n.rhsBatch by decide), dif_pos (show (1 : Fin S16384x32.rank) ∈ dot_S128x16384_S16384x32_S128x32_1_0_0_1_n_n.rhsNonContracting by decide)]
  rfl

/-- The body's value at row `p` of the block, feature `q`: the edge-weighted sum over all 16384 nodes of the first
    feature array, plus the second feature array's entry. -/
theorem pay1_apply (x0 : Vec Ideal S128x16384 .f32) (x1 : Vec Ideal S16384x32 .bf16) (x2 : Vec Ideal S128x32 .f32)
    (p : Fin 128) (q : Fin 32) :
    k1_pay1 (F := Ideal) x0 x1 x2 (ix2 p q) = (∑ k : Fin 16384, x0 (ix2 p k) * x1 (ix2 k q)) + x2 (ix2 p q) := by
  unfold k1_pay1
  simp only [matmul]
  rw [addf_apply, shapeCast_self, shapeCast_self, Ideal.matmul_constant_zero_apply,
    ← Equiv.sum_comp (contrEquiv1 dot_S128x16384_S16384x32_S128x32_1_0_0_1_n_n 16384 rfl rfl).symm]
  refine congrArg₂ (· + ·) (Finset.sum_congr rfl fun k _ => ?_) rfl
  have hk := contrEquiv1_symm_val dot_S128x16384_S16384x32_S128x32_1_0_0_1_n_n 16384 rfl rfl k
  have el : dot_S128x16384_S16384x32_S128x32_1_0_0_1_n_n.lhsIdx (ix2 p q) ((contrEquiv1 dot_S128x16384_S16384x32_S128x32_1_0_0_1_n_n 16384 rfl rfl).symm k) = ix2 p k := funext fun a => Fin.ext (by
    match a with
    | ⟨0, _⟩ => exact lhs1_0 _ _
    | ⟨1, _⟩ => exact (lhs1_1 _ _).trans hk)
  have er : dot_S128x16384_S16384x32_S128x32_1_0_0_1_n_n.rhsIdx (ix2 p q) ((contrEquiv1 dot_S128x16384_S16384x32_S128x32_1_0_0_1_n_n 16384 rfl rfl).symm k) = ix2 k q := funext fun a => Fin.ext (by
    match a with
    | ⟨0, _⟩ => exact (rhs1_0 _ _).trans hk
    | ⟨1, _⟩ => exact rhs1_1 _ _)
  rw [el, er]
  rfl

/-! ## The blocks and the array -/

section Region
variable (V : (c : Dev nD) → (b : Ref sig .tc) → Buf (Elt Ideal) ((c : Thread nD τ).loc b))

theorem hz : (![0, 0] : Fin 2 → Nat) = fun _ => 0 := funext fun a => by fin_cases a <;> rfl

/-- The edge weights and the two per-node feature arrays as the region finds them, at their literal types. -/
abbrev eArr (c : Dev nD) : Vec Ideal S16384x16384 .f32 := V c main_arg1
abbrev hbArr (c : Dev nD) : Vec Ideal S16384x32 .bf16 := V c main_v1_1
abbrev hfArr (c : Dev nD) : Vec Ideal S16384x32 .f32 := V c main_v1_0

/-- The printed index maps over the grid: the row windows sit at block `t`, the whole-array window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the aggregation of the three arrays the region finds. -/
theorem flushed3_eq (c : Dev nD) (t : Fin cfg1.N) :
    (dat1 V c).flushed 3 t
      = ((cfg1.win 3).blk t).view.read (Elt Ideal) (aggArr (eArr V c) (hbArr V c) (hfArr V c)) := by
  show (cfg1.win 3).cut (grid1.coords t) ((dat1 V c).after 3 t) = _
  rw [after1_3]
  unfold out1_3
  rw [View.canon_unit_zero hz]
  simp only [View.ld_unit_zero (S := S128x16384) hz, View.ld_unit_zero (S := S16384x32) hz, View.ld_unit_zero (S := S128x32) hz]
  obtain ⟨e0, e1, e2, e3, e4, e5, e6, e7⟩ := idx_facts t
  funext j
  obtain ⟨p, q, rfl⟩ : ∃ (p : Fin 128) (q : Fin 32), j = ix2 p q := ⟨j 0, j 1, eq_ix2 j⟩
  refine (pay1_apply (iblk1 V c 0 t) (iblk1 V c 1 t) (iblk1 V c 2 t) p q).trans ?_
  rw [View.read_apply]
  unfold Cert.Gcn.aggArr
  have h2 : ((cfg1.win 2).blk t).view.emb (ix2 p q) = ((cfg1.win 3).blk t).view.emb (ix2 p q) := by
    funext a; apply Fin.ext
    match a with
    | ⟨0, _⟩ => show win1_2.index t (0 : Fin 2) * 128 + 1 * p.val = win1_3.index t (0 : Fin 2) * 128 + 1 * p.val; omega
    | ⟨1, _⟩ => show win1_2.index t (1 : Fin 2) * 32 + 1 * q.val = win1_3.index t (1 : Fin 2) * 32 + 1 * q.val; omega
  refine congrArg₂ (· + ·) (Finset.sum_congr rfl fun k _ => ?_) ?_
  · show eArr V c (((cfg1.win 0).blk t).view.emb (ix2 p k)) * hbArr V c (((cfg1.win 1).blk t).view.emb (ix2 k q)) = _
    have h0 : ((cfg1.win 0).blk t).view.emb (ix2 p k)
        = ix2 (⟨((((cfg1.win 3).blk t).view.emb (ix2 p q)) 0).val, idx2_lt0 _⟩ : Fin 16384) k := by
      funext a; apply Fin.ext
      match a with
      | ⟨0, _⟩ => show win1_0.index t (0 : Fin 2) * 128 + 1 * p.val = win1_3.index t (0 : Fin 2) * 128 + 1 * p.val; omega
      | ⟨1, _⟩ => show win1_0.index t (1 : Fin 2) * 16384 + 1 * k.val = k.val; omega
    have h1 : ((cfg1.win 1).blk t).view.emb (ix2 k q)
        = ix2 k (⟨((((cfg1.win 3).blk t).view.emb (ix2 p q)) 1).val, idx2_lt1 _⟩ : Fin 32) := by
      funext a; apply Fin.ext
      match a with
      | ⟨0, _⟩ => show win1_1.index t (0 : Fin 2) * 16384 + 1 * k.val = k.val; omega
      | ⟨1, _⟩ => show win1_1.index t (1 : Fin 2) * 32 + 1 * q.val = win1_3.index t (1 : Fin 2) * 32 + 1 * q.val; omega
    rw [h0, h1]
  · show hfArr V c (((cfg1.win 2).blk t).view.emb (ix2 p q)) = hfArr V c (((cfg1.win 3).blk t).view.emb (ix2 p q))
    rw [h2]

/-! ## The 128 blocks tile the rows -/

/-- An index of the array is in point `t`'s block of the output iff each coordinate is in the block's range. -/
theorem mem_blk3 (t : Fin cfg1.N) (i : S16384x32.Idx) :
    i ∈ ((cfg1.win 3).blk t).view.set ↔ ∀ a : Fin 2, win1_3.index t a * S128x32.size a ≤ (i a).val ∧ (i a).val < win1_3.index t a * S128x32.size a + S128x32.size a := by
  show i ∈ ((View.whole main_v2).slice (win1_3.rect t)).set ↔ _
  rw [View.set_slice_whole, Rect.mem_set_unit]
  exact Iff.rfl

/-- Row `r` is in the block of point `r / 128`. -/
theorem cover3 (i : S16384x32.Idx) : ∃ t : Fin cfg1.N, (cfg1.win 3).flush t = true ∧ i ∈ ((cfg1.win 3).blk t).view.set := by
  have hi0 : (i 0).val < 16384 := (i 0).isLt
  have hi1 : (i 1).val < 32 := (i 1).isLt
  obtain ⟨t, ht⟩ : ∃ t : Fin cfg1.N, t.val = (i 0).val / 128 :=
    ⟨⟨(i 0).val / 128, by rw [show cfg1.N = 128 from N_1]; omega⟩, rfl⟩
  obtain ⟨e0, e1, e2, e3, e4, e5, e6, e7⟩ := idx_facts t
  refine ⟨t, flush1_3 t, ?_⟩
  rw [mem_blk3]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 32 ≤ (i 1).val ∧ (i 1).val < win1_3.index t (1 : Fin 2) * 32 + 32; omega

/-- The output array ends at the aggregation of the three arrays the region finds. -/
theorem final3 (c : Dev nD) : (dat1 V c).arrAt 3 cfg1.N = aggArr (eArr V c) (hbArr V c) (hfArr V c) :=
  (dat1 V c).arrAt_eq_of_cover 3 _ (fun t _ => flushed3_eq V c t) cover3

end Region

end Cert.KernelIdeal.Aggregate

end
-- ==== Proof.KernelValue.lean ====
/-
  The kernel program's result array at the ideal instance is the layer of `Spec.lean`.

  @main transposes the weights, runs the linear region on the node features and the transposed weights, and runs the
  aggregation region on the edge weights and the linear region's two outputs. Read backwards from the result array:
  it is what the aggregation region leaves, `aggArr` of the arrays that region finds; of those the edge weights are as
  launched (nothing before writes them) and the two feature arrays are what the linear region left, each `rowsByCols` of
  the arrays THAT region finds: the node features as launched and the transposed weights. With wt[d, b] = w[b, d] the
  two stages compose to the layer (`aggArr_rowsByCols`).
-/
import proofs.«170183_j82394652607289_1_alg».proof.Proof.KernelIdealRun
import proofs.«170183_j82394652607289_1_alg».proof.Proof.LinearRegion
import proofs.«170183_j82394652607289_1_alg».proof.Proof.AggregateRegion
import Idealize.ShloMosaic.Lib.StableHlo.Run

set_option maxRecDepth 16384

noncomputable section

open scoped BigOperators

namespace Cert.KernelIdeal.Layer

open Cert.KernelIdeal Cert.KernelIdeal.Gen Idealize.ShloMosaic Idealize.ShloMosaic.TcCoe Idealize.ShloMosaic.ValueIdx
open Idealize.SL.Sem Idealize.ShloMosaic.StableHlo
open Cert.Gcn

variable (m : (ℓ : Loc nD τ sig) → Buf (Elt Ideal) ℓ) (ρ : Dev nD → PrngReg)

/-- The three arguments as launched, at their literal types. -/
abbrev xIn (c : Dev nD) : Vec Ideal S16384x32 .f32 := m ((c : Thread nD τ).loc main_arg0)
abbrev eIn (c : Dev nD) : Vec Ideal S16384x16384 .f32 := m ((c : Thread nD τ).loc main_arg1)
abbrev wIn (c : Dev nD) : Vec Ideal S32x32 .f32 := m ((c : Thread nD τ).loc main_arg2)

/-! ## What the linear region finds -/

/-- The node features are as launched: the transpose before the region writes another buffer. -/
theorem lin_x (c : Dev nD) : Linear.xArr (V1 m ρ) c = xIn m c := by
  show StableHlo.after hostOps0 (W0 m ρ c) (Proc.devRef .tc main_arg0) = _
  after_results
  all_goals rfl

/-- The matrix is the transposed weights. -/
theorem lin_wt (c : Dev nD) :
    Linear.wtArr (V1 m ρ) c = transpose S32x32 [1, 0] (wIn m c) transposes_S32x32_S32x32_1_0 := by
  show StableHlo.after hostOps0 (W0 m ρ c) (Proc.devRef .tc main_v0) = _
  after_results
  all_goals rfl

/-- The transposed weights at (d, b) are the weights at (b, d). -/
theorem wt_apply (c : Dev nD) (d b : Fin 32) :
    transpose S32x32 [1, 0] (wIn m c) transposes_S32x32_S32x32_1_0 (ix2 d b) = wIn m c (ix2 b d) :=
  transpose_apply [1, 0] (wIn m c) transposes_S32x32_S32x32_1_0 (ix2 d b) (ix2 b d) (fun q => match q with
    | ⟨0, _⟩ => rfl
    | ⟨1, _⟩ => rfl)

/-! ## What the aggregation region finds -/

/-- The edge weights are as launched: neither the transpose nor the linear region writes them. -/
theorem agg_e (c : Dev nD) : Aggregate.eArr (V2 m ρ) c = eIn m c := by
  show W2 m ρ c (Proc.devRef .tc main_arg1) = _
  rw [W2_of_ne m ρ c main_arg1 (by decide)]
  show StableHlo.after hostOps0 (W0 m ρ c) (Proc.devRef .tc main_arg1) = _
  after_results
  all_goals rfl

/-- The first feature array (the copy in the narrower float format) is what the linear region left in its second output. -/
theorem agg_hb (c : Dev nD) :
    Aggregate.hbArr (V2 m ρ) c = rowsByCols (xIn m c) (transpose S32x32 [1, 0] (wIn m c) transposes_S32x32_S32x32_1_0) := by
  show W2 m ρ c (Proc.devRef .tc (Pipeline.arrRef spec0 3)) = _
  rw [W2_arr m ρ c 3, Linear.final3 (V1 m ρ) c, lin_x, lin_wt]

/-- The second feature array is what the linear region left in its first output. -/
theorem agg_hf (c : Dev nD) :
    Aggregate.hfArr (V2 m ρ) c = rowsByCols (xIn m c) (transpose S32x32 [1, 0] (wIn m c) transposes_S32x32_S32x32_1_0) := by
  show W2 m ρ c (Proc.devRef .tc (Pipeline.arrRef spec0 2)) = _
  rw [W2_arr m ρ c 2, Linear.final2 (V1 m ρ) c, lin_x, lin_wt]

/-! ## The result array -/

/-- The result array at the last boundary is the layer of the three arguments as launched. -/
theorem result_eq (c : Dev nD) :
    (W3 m ρ c (Proc.devRef .tc main_v2) : S16384x32.Idx → EReal) = layer (xIn m c) (eIn m c) (wIn m c) := by
  show W3 m ρ c (Proc.devRef .tc (Pipeline.arrRef spec1 3)) = _
  rw [W3_arr m ρ c 3, Aggregate.final3 (V2 m ρ) c, agg_e, agg_hb, agg_hf]
  exact aggArr_rowsByCols (xIn m c) (eIn m c) (wIn m c) _ (wt_apply m c)

/-- The run with the result array named: every weakly fair execution of the kernel program terminates with its result
    at the layer of the arguments and the arguments unchanged. -/
theorem run : θ_run defs (onTc (τ := τ) (main (F := Ideal))) ⟨m, fun _ => 0, ρ⟩ (fun r => ∀ c : Dev nD,
      r.2.mem ((c.tc : Thread nD τ).loc main_v2) = layer (xIn m c) (eIn m c) (wIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Named.run_named m ρ)

end Cert.KernelIdeal.Layer

end
-- ==== Proof.RefValue.lean ====
/-
  The reference at the ideal instance is the layer of `Spec.lean`: its transpose followed by a contraction of the
  second axis of `x` with the first axis of the transposed weights is the sum over `d` of x[k, d] · w[j, d]; its second
  contraction is the sum over the nodes `k` of e[i, k] · h[k, j]; its addition is the self term.
-/
import proofs.«170183_j82394652607289_1_alg».proof.Proof.Gen.ReferenceIdeal.Read
import proofs.«170183_j82394652607289_1_alg».proof.Proof.Spec

noncomputable section

open scoped BigOperators

namespace Cert.ReferenceIdeal.RefValue

open Cert.ReferenceIdeal Cert.ReferenceIdeal.Read Idealize.ShloMosaic Idealize.ShloMosaic.ValueIdx

/-- The reference's first product, at node `a` and feature `b`, is the linear layer. -/
theorem ref_lin (x0 : (⟨S16384x32, .f32⟩ : BufTy).Contents (Elt Ideal)) (x2 : (⟨S32x32, .f32⟩ : BufTy).Contents (Elt Ideal))
    (a : Fin 16384) (b : Fin 32) :
    val_main_v1 (F := Ideal) x0 x2 (ix2 a b) = Cert.Gcn.lin x0 x2 a b := by
  rw [val_main_v1_apply]
  unfold Cert.Gcn.lin
  refine Finset.sum_congr rfl fun d _ => ?_
  rw [val_main_v0_apply]
  have e1 : lidx_main_v1 (ix2 a b) d = ix2 a d := funext fun q => by
    match q with | ⟨0, _⟩ => rfl | ⟨1, _⟩ => rfl
  have e2 : idx_main_v0 (ridx_main_v1 (ix2 a b) d) = ix2 b d := funext fun q => by
    match q with | ⟨0, _⟩ => rfl | ⟨1, _⟩ => rfl
  rw [e1, e2]

/-- The reference's result array is the layer of its three arguments. -/
theorem ref_layer (x0 : (⟨S16384x32, .f32⟩ : BufTy).Contents (Elt Ideal)) (x1 : (⟨S16384x16384, .f32⟩ : BufTy).Contents (Elt Ideal))
    (x2 : (⟨S32x32, .f32⟩ : BufTy).Contents (Elt Ideal)) :
    val_main_v3 (F := Ideal) x0 x1 x2 = Cert.Gcn.layer x0 x1 x2 := by
  funext i
  obtain ⟨a, b, rfl⟩ : ∃ (a : Fin 16384) (b : Fin 32), i = ix2 a b := ⟨i 0, i 1, eq_ix2 i⟩
  rw [val_main_v3_apply, val_main_v2_apply, ref_lin, Cert.Gcn.layer_ix2]
  unfold Cert.Gcn.agg
  show _ + _ = _
  refine congrArg₂ (· + ·) (Finset.sum_congr rfl fun k _ => ?_) rfl
  have e1 : lidx_main_v2 (ix2 a b) k = ix2 a k := funext fun q => by
    match q with | ⟨0, _⟩ => rfl | ⟨1, _⟩ => rfl
  have e2 : ridx_main_v2 (ix2 a b) k = ix2 k b := funext fun q => by
    match q with | ⟨0, _⟩ => rfl | ⟨1, _⟩ => rfl
  rw [e1, e2, ref_lin]

end Cert.ReferenceIdeal.RefValue

end
-- ==== Proof.lean ====
/-
  The certificate of a graph-convolution layer: out = edges · h + h with h = x · w1ᵀ, over 16384 nodes and 32 features.

  The kernel program computes h in one tiled region (eight blocks of 2048 nodes, the product kept twice: once as it is,
  once in a narrower float format to feed the second product) and the aggregation in a second tiled region (128 blocks
  of 128 nodes, each block's rows of the edge weights against the whole of h, plus the same rows of h). The reference
  is two whole-array contractions and an addition. At the ideal instance a change of float format is the identity and
  a product into a zero accumulator is the plain finite sum, so both programs end at the SAME array of the three
  inputs, index by index (`Cert.Gcn.layer`): out[i, j] = ∑_k e[i, k] · (∑_d x[k, d] · w[j, d]) + ∑_d x[i, d] · w[j, d].
  The two sides differ only in how the rows are grouped into tiles; no law of the extended reals beyond the
  finite sums themselves is used, and the finiteness of the inputs is not needed.

  The three frames: the two kernel programs' are the generated frame certificates; the reference's is its generated
  run with the result dropped. The idealization rewrote nothing, so `preserves` is `True`.
-/
import proofs.«170183_j82394652607289_1_alg».proof.Defs
import proofs.«170183_j82394652607289_1_alg».proof.Proof.Gen.Kernel
import proofs.«170183_j82394652607289_1_alg».proof.Proof.Gen.Kernel.Skeleton
import proofs.«170183_j82394652607289_1_alg».proof.Proof.Gen.Kernel.Launch
import proofs.«170183_j82394652607289_1_alg».proof.Proof.Gen.Kernel.Points
import proofs.«170183_j82394652607289_1_alg».proof.Proof.Gen.Kernel.Frame
import proofs.«170183_j82394652607289_1_alg».proof.Proof.Gen.KernelIdeal
import proofs.«170183_j82394652607289_1_alg».proof.Proof.Gen.KernelIdeal.Skeleton
import proofs.«170183_j82394652607289_1_alg».proof.Proof.Gen.KernelIdeal.Launch
import proofs.«170183_j82394652607289_1_alg».proof.Proof.Gen.KernelIdeal.Points
import proofs.«170183_j82394652607289_1_alg».proof.Proof.Gen.KernelIdeal.Frame
import proofs.«170183_j82394652607289_1_alg».proof.Proof.Gen.ReferenceIdeal
import proofs.«170183_j82394652607289_1_alg».proof.Proof.Gen.ReferenceIdeal.Run
import proofs.«170183_j82394652607289_1_alg».proof.Proof.Gen.ReferenceIdeal.Read
import proofs.«170183_j82394652607289_1_alg».proof.Proof.Gen.Pre_finite_inputs
import proofs.«170183_j82394652607289_1_alg».proof.Proof.KernelValue
import proofs.«170183_j82394652607289_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three inputs, both programs end at the layer of those inputs: the kernel program by
    its two regions read back to the launch contents, the reference by its four operations read at an index. -/
theorem algebraic : Cert.algebraic_KernelIdeal_ReferenceIdeal := by
  intro m ρ m' ρ' _ hagree
  refine ⟨fun c => Cert.Gcn.layer (Cert.KernelIdeal.Layer.xIn m c) (Cert.KernelIdeal.Layer.eIn m c) (Cert.KernelIdeal.Layer.wIn m c),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.ref_layer (Cert.KernelIdeal.Layer.xIn m c) (Cert.KernelIdeal.Layer.eIn m c) (Cert.KernelIdeal.Layer.wIn m c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
